-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_arg10 : FVec F S64x128 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S64x128 .f32) (main_arg9 : FVec F S64 .f32) (main_arg10 : FVec F S64x128 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) (main_arg8 : FVec F S64x128 .f32) (main_arg9 : FVec F S64 .f32) (main_arg10 : FVec F S64x128 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x64 : Shape := ⟨2, ![128, 64]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 54
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S64, .f32⟩
  | .hbm, ⟨12, _⟩ => ⟨S128x128, .f32⟩
  | .hbm, ⟨13, _⟩ => ⟨S128x128, .f32⟩
  | .hbm, ⟨14, _⟩ => ⟨S128x64, .f32⟩
  | .hbm, ⟨15, _⟩ => ⟨S128x64, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S100000x128, .f32⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S1x64, .f32⟩
  | .hbm, ⟨52, _⟩ => ⟨S1x64, .f32⟩
  | .hbm, ⟨53, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S128x128_S128x128_1_0 : S128x128.Transposes [1, 0] S128x128
  transposes_S64x128_S128x64_1_0 : S64x128.Transposes [1, 0] S128x64
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S64, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000, .f32⟩
  | .hbm, ⟨42, _⟩ => ⟨S100000x1, .f32⟩
  | .hbm, ⟨43, _⟩ => ⟨S_, .f32⟩
  | .hbm, ⟨44, _⟩ => ⟨S100000x1, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S1600000x1, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S128x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S128x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000, .f32⟩
  | .hbm, ⟨89, _⟩ => ⟨S100000x1, .f32⟩
  | .hbm, ⟨90, _⟩ => ⟨S100000x1, .f32⟩
  | .hbm, ⟨91, _⟩ => ⟨S100000x64, .f32⟩
  | .hbm, ⟨92, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_c_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v56 : Ref sig .tc := ⟨.hbm, 92, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S_S100000 : S_.BroadcastsInDim S100000 (![] : Fin 0 → Fin S100000.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RowSpec.lean ====
/-
  The two graph layers, one node (one row) at a time, over the extended reals.

  Both programs first aggregate the neighbours' features into an array `A` (a scaled gather followed by a sum per
  target row) and then, for every node `i`, apply ONE function to row `i` of `A` and row `i` of the features `X`:

    layer 1:  p j = (∑ k, A(i,k) · Wl(k,j)) + bl j + (∑ k, X(i,k) · Wr(k,j)) + br j      (`lin`)
              h j = max (p j / max (∑ q, |p q|) ε) 0                                      (`normRelu`)
    layer 2:  s j = the same affine form `lin` with the second layer's weights (64 columns)
              o j = (s j - M) - log (∑ q, exp (s q - M)),   M = max over q of s q           (`logSoftmax`)

  where |t| is `max t (-t)`, the quotient is the extended reals' (`Ideal.div`), and the maximum of a row is a fold of
  `max` that starts from the value of the -∞ word. A row's result depends on that row only, so cutting the
  100000 rows into blocks of 5000 changes nothing: that is all the kernel's tiling does. `hidden` and `scores` are the
  two layers as functions of whole arrays, index by index; the weights enter already transposed (128 × N) and each bias
  as a function of the column.
-/
import Idealize.ShloMosaic.PureOps.Ideal.Laws
import Idealize.ShloMosaic.Lib.ValueIdx
import Idealize.ShloMosaic.Lib.ValueLayout

noncomputable section

open scoped BigOperators

namespace Cert.SageRows

open Idealize.ShloMosaic Idealize.ShloMosaic.ValueIdx

/-- The floor of the L1 norm: the value of the single-precision word nearest to 1e-12 (the same word in both programs,
    never evaluated). -/
abbrev eps : EReal := Ideal.ofBits .f32 0x2B8CBCCC#32
/-- The value of the zero word. -/
abbrev zero : EReal := Ideal.ofBits .f32 0x00000000#32
/-- The value of the -∞ word, from which a row's maximum is folded. -/
abbrev bot : EReal := Ideal.ofBits .f32 0xFF800000#32

/-- One row's affine form: the aggregated row `a` through `wl`, plus `bl`, plus the node's own row `x` through `wr`, plus
    `br`, added in this order. -/
def lin {N : Nat} (a x : Fin 128 → EReal) (wl wr : FVec Ideal ⟨2, ![128, N]⟩ .f32) (bl br : Fin N → EReal) (j : Fin N) : EReal :=
  (∑ k : Fin 128, a k * wl (ix2 k j)) + bl j + (∑ k : Fin 128, x k * wr (ix2 k j)) + br j

/-- A row divided by its L1 norm (floored at `eps`), then clamped below at zero. -/
def normRelu (p : Fin 128 → EReal) (j : Fin 128) : EReal :=
  max (Ideal.div (p j) (max (∑ q : Fin 128, max (p q) (-(p q))) eps)) zero

/-- A row's maximum, folded from the -∞ word's value. -/
def rowMax (p : Fin 64 → EReal) : EReal := (Finset.univ : Finset (Fin 64)).fold max bot p

/-- The log-softmax of a row: shifted by its maximum, minus the log of the sum of the shifted exponentials. -/
def logSoftmax (p : Fin 64 → EReal) (j : Fin 64) : EReal :=
  (p j - rowMax p) - Ideal.log (∑ q : Fin 64, Ideal.exp (p q - rowMax p))

/-- Layer 1 on whole arrays: row `i` of the result is `normRelu` of the affine form of rows `i` of `A` and `X`. -/
def hidden (A X : FVec Ideal ⟨2, ![100000, 128]⟩ .f32) (wl wr : FVec Ideal ⟨2, ![128, 128]⟩ .f32) (bl br : Fin 128 → EReal) :
    FVec Ideal ⟨2, ![100000, 128]⟩ .f32 :=
  fun i => normRelu (lin (fun k => A (ix2 (i 0) k)) (fun k => X (ix2 (i 0) k)) wl wr bl br) (i 1)

/-- Layer 2 on whole arrays: row `i` of the result is the log-softmax of the affine form of rows `i` of `A` and `X`. -/
def scores (A X : FVec Ideal ⟨2, ![100000, 128]⟩ .f32) (wl wr : FVec Ideal ⟨2, ![128, 64]⟩ .f32) (bl br : Fin 64 → EReal) :
    FVec Ideal ⟨2, ![100000, 64]⟩ .f32 :=
  fun i => logSoftmax (lin (fun k => A (ix2 (i 0) k)) (fun k => X (ix2 (i 0) k)) wl wr bl br) (i 1)

theorem hidden_apply (A X : FVec Ideal ⟨2, ![100000, 128]⟩ .f32) (wl wr : FVec Ideal ⟨2, ![128, 128]⟩ .f32) (bl br : Fin 128 → EReal)
    (i : Fin 100000) (j : Fin 128) :
    hidden A X wl wr bl br (ix2 i j) = normRelu (lin (fun k => A (ix2 i k)) (fun k => X (ix2 i k)) wl wr bl br) j := rfl

theorem scores_apply (A X : FVec Ideal ⟨2, ![100000, 128]⟩ .f32) (wl wr : FVec Ideal ⟨2, ![128, 64]⟩ .f32) (bl br : Fin 64 → EReal)
    (i : Fin 100000) (j : Fin 64) :
    scores A X wl wr bl br (ix2 i j) = logSoftmax (lin (fun k => A (ix2 i k)) (fun k => X (ix2 i k)) wl wr bl br) j := rfl

/-! ## Two column forms of layout operations, read at an index -/

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.SageRows

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelRows.lean ====
/-
  The two kernel bodies' stored values, read at one entry of the block.

  Each body loads a block of 5000 rows of the aggregated array and of the features, the two weight matrices and the two
  bias rows whole, and stores one block. At the ideal values the change of format before each product is the identity and a
  product into the all-zero array is the plain sum over the 128 contracted positions, so entry (p, q) of the stored
  block is the row function of row p of the two loaded blocks: `normRelu ∘ lin` in the first kernel, `logSoftmax ∘ lin`
  in the second (Proof/RowSpec.lean). Nothing here depends on which block it is.
-/
import proofs.«116038_j67053029425277_1_alg».proof.Proof.Gen.KernelIdeal.Skeleton
import proofs.«116038_j67053029425277_1_alg».proof.Proof.RowSpec
import proofs.«116038_j67053029425277_1_alg».proof.Proof.LibDotPlain

noncomputable section

open scoped BigOperators

namespace Cert.KernelIdeal.Rows

open Idealize.ShloMosaic Idealize.ShloMosaic.ValueIdx Cert.KernelIdeal Cert.KernelIdeal.Gen Cert.SageRows

/-- The contraction record of the first kernel is the plain one, 5000×128 by 128×128. -/
theorem d0_eq : dot_S5000x128_S128x128_S5000x128_1_0_0_1_n_n = DotDims.plain 5000 128 128 := rfl
/-- The contraction record of the second kernel is the plain one, 5000×128 by 128×64. -/
theorem d1_eq : dot_S5000x128_S128x64_S5000x64_1_0_0_1_n_n = DotDims.plain 5000 128 64 := rfl

/-- Row p's index with lane k inserted on the reduced axis is (p, k): 128 lanes. -/
theorem lift128 (p : Fin 5000) (k : Fin 128) : reduces_S5000x128_S5000.lift (ix1 p) k = ix2 p k := by
  funext ax
  match ax with
  | ⟨0, _⟩ => rfl
  | ⟨1, _⟩ => rfl
/-- Row p's index with lane k inserted on the reduced axis is (p, k): 64 lanes. -/
theorem lift64 (p : Fin 5000) (k : Fin 64) : reduces_S5000x64_S5000.lift (ix1 p) k = ix2 p k := by
  funext ax
  match ax with
  | ⟨0, _⟩ => rfl
  | ⟨1, _⟩ => rfl

/-- The sum over the lanes of a 5000×128 array, read at row p. -/
theorem rowSum128 (v : FVec Ideal S5000x128 .f32) (p : Fin 5000) :
    multiReduction (F := Ideal) .add [1] S5000 v 0x00000000#32 reduces_S5000x128_S5000 (.inl rfl) rfl (ix1 p)
      = ∑ k : Fin 128, v (ix2 p k) := by
  refine (Ideal.multiReduction_add_single v _ reduces_S5000x128_S5000 (.inl rfl) rfl (ix1 p)).trans ?_
  exact Finset.sum_congr rfl fun k _ => congrArg v (lift128 p k)

/-- The first kernel's closing steps on a 5000×128 array `v`: each row divided by the larger of its L1 norm and the
    floor, then clamped below at zero — `normRelu` of the row. -/
theorem tail0_apply (v : FVec Ideal S5000x128 .f32) (p : Fin 5000) (q : Fin 128) :
    maximumf (divf v (broadcastTo S5000x128 (maximumf (shapeCast S5000x1 (multiReduction (F := Ideal) .add [1] S5000 (absf v) 0x00000000#32 reduces_S5000x128_S5000 (.inl rfl) rfl) shapeCasts_S5000_S5000x1) (broadcast S5000x1 (Scalar.ofBits (F := Ideal) .f32 0x2B8CBCCC#32))) broadcasts_S5000x1_S5000x128)) (broadcast S5000x128 (Scalar.ofBits (F := Ideal) .f32 0x00000000#32)) (ix2 p q)
      = normRelu (fun k => v (ix2 p k)) q := by
  show max (Ideal.div (v (ix2 p q)) (broadcastTo S5000x128 _ broadcasts_S5000x1_S5000x128 (ix2 p q))) zero = _
  rw [broadcastTo_a1_ab_apply]
  show max (Ideal.div _ (max (shapeCast S5000x1 _ _ (ix2 p (0 : Fin 1))) eps)) zero = _
  rw [shapeCast_a_a1_apply, rowSum128]
  rfl

/-- The first kernel's affine form at (p, q): the two products into the zero array are plain sums over the 128 contracted
    positions, the changes of format and the same-shape casts are identities, and each bias row is read at lane q. -/
theorem aff0_apply (a x : Vec Ideal S5000x128 .f32) (wl wr : Vec Ideal S128x128 .f32) (bl br : Vec Ideal S1x128 .f32)
    (p : Fin 5000) (q : Fin 128) :
    addf (addf (addf (matmul dot_S5000x128_S128x128_S5000x128_1_0_0_1_n_n none
            (truncf .bf16 (shapeCast S5000x128 a shapeCasts_S5000x128_S5000x128) bitsLt_bf16_f32)
            (truncf .bf16 (shapeCast S128x128 wl shapeCasts_S128x128_S128x128) bitsLt_bf16_f32)
            (constant (F := Ideal) S5000x128 .f32 0x00000000#32))
          (broadcastTo S5000x128 (shapeCast S1x128 bl shapeCasts_S1x128_S1x128) broadcasts_S1x128_S5000x128))
        (matmul dot_S5000x128_S128x128_S5000x128_1_0_0_1_n_n none
            (truncf .bf16 x bitsLt_bf16_f32)
            (truncf .bf16 (shapeCast S128x128 wr shapeCasts_S128x128_S128x128) bitsLt_bf16_f32)
            (constant (F := Ideal) S5000x128 .f32 0x00000000#32)))
      (broadcastTo S5000x128 (shapeCast S1x128 br shapeCasts_S1x128_S1x128) broadcasts_S1x128_S5000x128) (ix2 p q)
      = lin (fun k => a (ix2 p k)) (fun k => x (ix2 p k)) wl wr (fun j => bl (ix2 (0 : Fin 1) j)) (fun j => br (ix2 (0 : Fin 1) j)) q := by
  simp only [shapeCast_self, d0_eq]
  refine (addf_apply _ _ _).trans ?_
  rw [addf_apply, addf_apply, broadcastTo_1b_ab_apply, broadcastTo_1b_ab_apply]
  exact congrArg₂ (fun s t => s + bl (ix2 (0 : Fin 1) q) + t + br (ix2 (0 : Fin 1) q))
    (Cert.LibDotPlain.matmul_zero_plain 5000 128 128 none (truncf .bf16 a bitsLt_bf16_f32) (truncf .bf16 wl bitsLt_bf16_f32) p q)
    (Cert.LibDotPlain.matmul_zero_plain 5000 128 128 none (truncf .bf16 x bitsLt_bf16_f32) (truncf .bf16 wr bitsLt_bf16_f32) p q)

/-- The sum over the lanes of a 5000×64 array, read at row p. -/
theorem rowSum64 (v : FVec Ideal S5000x64 .f32) (p : Fin 5000) :
    multiReduction (F := Ideal) .add [1] S5000 v 0x00000000#32 reduces_S5000x64_S5000 (.inl rfl) rfl (ix1 p)
      = ∑ k : Fin 64, v (ix2 p k) := by
  refine (Ideal.multiReduction_add_single v _ reduces_S5000x64_S5000 (.inl rfl) rfl (ix1 p)).trans ?_
  exact Finset.sum_congr rfl fun k _ => congrArg v (lift64 p k)

/-- The maximum over the lanes of a 5000×64 array, folded from the -∞ word's value, read at row p. -/
theorem rowMax64 (v : FVec Ideal S5000x64 .f32) (p : Fin 5000) :
    multiReduction (F := Ideal) .maximumf [1] S5000 v 0xFF800000#32 reduces_S5000x64_S5000 (.inl rfl) rfl (ix1 p)
      = rowMax (fun k => v (ix2 p k)) := by
  refine (Ideal.multiReduction_maximumf_single v _ reduces_S5000x64_S5000 (.inl rfl) rfl (ix1 p)).trans ?_
  have e : v ∘ reduces_S5000x64_S5000.lift (ix1 p) = fun k : Fin 64 => v (ix2 p k) :=
    funext fun k => congrArg v (lift64 p k)
  rw [e]
  rfl

/-- A 5000×64 array minus its rows' maxima, at (p, k). -/
theorem shift1_apply (v : FVec Ideal S5000x64 .f32) (p : Fin 5000) (k : Fin 64) :
    subf v (broadcastTo S5000x64 (shapeCast S5000x1 (multiReduction (F := Ideal) .maximumf [1] S5000 v 0xFF800000#32 reduces_S5000x64_S5000 (.inl rfl) rfl) shapeCasts_S5000_S5000x1) broadcasts_S5000x1_S5000x64) (ix2 p k)
      = v (ix2 p k) - rowMax (fun k => v (ix2 p k)) := by
  refine (subf_apply _ _ _).trans ?_
  rw [broadcastTo_a1_ab_apply, shapeCast_a_a1_apply, rowMax64]

/-- The second kernel's closing steps on a shifted 5000×64 array `w`: minus the log of each row's sum of exponentials. -/
theorem lse1_apply (w : FVec Ideal S5000x64 .f32) (p : Fin 5000) (q : Fin 64) :
    subf w (broadcastTo S5000x64 (log (shapeCast S5000x1 (multiReduction (F := Ideal) .add [1] S5000 (exp w) 0x00000000#32 reduces_S5000x64_S5000 (.inl rfl) rfl) shapeCasts_S5000_S5000x1)) broadcasts_S5000x1_S5000x64) (ix2 p q)
      = w (ix2 p q) - Ideal.log (∑ k : Fin 64, Ideal.exp (w (ix2 p k))) := by
  refine (subf_apply _ _ _).trans ?_
  rw [broadcastTo_a1_ab_apply]
  show _ - Ideal.log (shapeCast S5000x1 _ _ (ix2 p (0 : Fin 1))) = _
  rw [shapeCast_a_a1_apply, rowSum64]
  rfl

/-- The second kernel's affine form at (p, q): as in the first, with 64 result lanes. -/
theorem aff1_apply (a x : Vec Ideal S5000x128 .f32) (wl wr : Vec Ideal S128x64 .f32) (bl br : Vec Ideal S1x64 .f32)
    (p : Fin 5000) (q : Fin 64) :
    addf (addf (addf (matmul dot_S5000x128_S128x64_S5000x64_1_0_0_1_n_n none
            (truncf .bf16 (shapeCast S5000x128 a shapeCasts_S5000x128_S5000x128) bitsLt_bf16_f32)
            (truncf .bf16 (shapeCast S128x64 wl shapeCasts_S128x64_S128x64) bitsLt_bf16_f32)
            (constant (F := Ideal) S5000x64 .f32 0x00000000#32))
          (broadcastTo S5000x64 (shapeCast S1x64 bl shapeCasts_S1x64_S1x64) broadcasts_S1x64_S5000x64))
        (matmul dot_S5000x128_S128x64_S5000x64_1_0_0_1_n_n none
            (truncf .bf16 (shapeCast S5000x128 x shapeCasts_S5000x128_S5000x128) bitsLt_bf16_f32)
            (truncf .bf16 (shapeCast S128x64 wr shapeCasts_S128x64_S128x64) bitsLt_bf16_f32)
            (constant (F := Ideal) S5000x64 .f32 0x00000000#32)))
      (broadcastTo S5000x64 (shapeCast S1x64 br shapeCasts_S1x64_S1x64) broadcasts_S1x64_S5000x64) (ix2 p q)
      = lin (fun k => a (ix2 p k)) (fun k => x (ix2 p k)) wl wr (fun j => bl (ix2 (0 : Fin 1) j)) (fun j => br (ix2 (0 : Fin 1) j)) q := by
  simp only [shapeCast_self, d1_eq]
  refine (addf_apply _ _ _).trans ?_
  rw [addf_apply, addf_apply, broadcastTo_1b_ab_apply, broadcastTo_1b_ab_apply]
  exact congrArg₂ (fun s t => s + bl (ix2 (0 : Fin 1) q) + t + br (ix2 (0 : Fin 1) q))
    (Cert.LibDotPlain.matmul_zero_plain 5000 128 64 none (truncf .bf16 a bitsLt_bf16_f32) (truncf .bf16 wl bitsLt_bf16_f32) p q)
    (Cert.LibDotPlain.matmul_zero_plain 5000 128 64 none (truncf .bf16 x bitsLt_bf16_f32) (truncf .bf16 wr bitsLt_bf16_f32) p q)

/-- If row p of `V` is `L` and row p of `W` is row p of `V` minus its maximum, then row p of `W` minus the log of its sum of
    exponentials is the log-softmax of `L`. -/
theorem logSoftmax_of (V W : FVec Ideal S5000x64 .f32) (L : Fin 64 → EReal) (p : Fin 5000) (q : Fin 64)
    (hW : ∀ k, W (ix2 p k) = V (ix2 p k) - rowMax (fun k => V (ix2 p k))) (hV : ∀ k, V (ix2 p k) = L k) :
    W (ix2 p q) - Ideal.log (∑ k : Fin 64, Ideal.exp (W (ix2 p k))) = logSoftmax L q := by
  have e : (fun k => V (ix2 p k)) = L := funext hV
  rw [e] at hW
  have hs : ∑ k : Fin 64, Ideal.exp (W (ix2 p k)) = ∑ k : Fin 64, Ideal.exp (L k - rowMax L) :=
    Finset.sum_congr rfl fun k _ => by rw [hW k, hV k]
  rw [hs, hW q, hV q]
  rfl
/-- Entry (p, q) of the first kernel's stored block. -/
theorem pay0_apply (a x : Vec Ideal S5000x128 .f32) (wl wr : Vec Ideal S128x128 .f32) (bl br : Vec Ideal S1x128 .f32)
    (p : Fin 5000) (q : Fin 128) :
    k0_pay1 (F := Ideal) a x wl wr bl br (ix2 p q)
      = normRelu (lin (fun k => a (ix2 p k)) (fun k => x (ix2 p k)) wl wr (fun j => bl (ix2 (0 : Fin 1) j)) (fun j => br (ix2 (0 : Fin 1) j))) q := by
  exact (tail0_apply _ p q).trans (congrArg (fun f => normRelu f q) (funext fun k => aff0_apply a x wl wr bl br p k))

/-- Entry (p, q) of the second kernel's stored block. -/
theorem pay1_apply (a x : Vec Ideal S5000x128 .f32) (wl wr : Vec Ideal S128x64 .f32) (bl br : Vec Ideal S1x64 .f32)
    (p : Fin 5000) (q : Fin 64) :
    k1_pay1 (F := Ideal) a x wl wr bl br (ix2 p q)
      = logSoftmax (lin (fun k => a (ix2 p k)) (fun k => x (ix2 p k)) wl wr (fun j => bl (ix2 (0 : Fin 1) j)) (fun j => br (ix2 (0 : Fin 1) j))) q := by
  exact (lse1_apply _ p q).trans (logSoftmax_of _ _ _ p q (shift1_apply _ p) (aff1_apply a x wl wr bl br p))

end Cert.KernelIdeal.Rows

end
-- ==== Proof.KernelArrays.lean ====
/-
  From blocks to arrays: what each region's output array holds when the region ends.

  Point t of either grid reads rows 5000·t … 5000·t + 4999 of its two row-blocked operands, the weights and biases whole,
  and writes back rows 5000·t … 5000·t + 4999 of the result. Entry (p, q) of what it writes is the row function of row p of
  the loaded blocks (Proof/KernelRows.lean), that is of row 5000·t + p of the arrays: exactly entry (5000·t + p, q) of
  `hidden` (first region) or `scores` (second region) of the arrays as the region finds them. The twenty blocks tile the
  100000 rows (row r lies in block r / 5000), so the output array ends holding that function everywhere.
-/
import proofs.«116038_j67053029425277_1_alg».proof.Proof.Gen.KernelIdeal.Frame
import proofs.«116038_j67053029425277_1_alg».proof.Proof.KernelRows
import Idealize.ShloMosaic.Lib.Pipeline.Value

set_option maxRecDepth 16384

noncomputable section

open scoped BigOperators

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.SageRows

variable (V : (c : Dev nD) → (b : Ref sig .tc) → Buf (Elt Ideal) ((c : Thread nD τ).loc b))

/-- The zero offsets of a whole-buffer rectangle, as the constant function. -/
theorem zeroOff : (![0, 0] : Fin 2 → Nat) = fun _ => 0 := funext fun a => by fin_cases a <;> rfl

/-- The affine form of a row depends only on its six operands. -/
theorem lin_congr {N : Nat} {a a' x x' : Fin 128 → EReal} {wl wl' wr wr' : FVec Ideal ⟨2, ![128, N]⟩ .f32}
    {bl bl' br br' : Fin N → EReal} (ha : a = a') (hx : x = x') (hwl : wl = wl') (hwr : wr = wr') (hbl : bl = bl')
    (hbr : br = br') : lin a x wl wr bl br = lin a' x' wl' wr' bl' br' := by
  subst ha hx hwl hwr hbl hbr; rfl

/-! ## The first region -/

/-- The first region's block indices over its twenty points: the row-blocked windows (aggregated rows, the node rows,
    the result) sit at block (t, 0), the weights and biases at block (0, 0). -/
theorem blockIdx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- A point's number is below twenty. -/
theorem pt_lt0 (t : Fin cfg0.N) : t.val < 20 := lt_of_lt_of_eq t.isLt N_0

/-- Block t of the aggregated rows is rows 5000·t … 5000·t + 4999 of the array. -/
theorem aggBlk0 (c : Dev nD) (t : Fin cfg0.N) (p : Fin 5000) (k : Fin 128) (h : 5000 * t.val + p.val < 100000) :
    (iblk0 V c 0 t : Vec Ideal S5000x128 .f32) (ix2 p k)
      = (V c main_v16 : S100000x128.Idx → EReal) (ix2 ⟨5000 * t.val + p.val, h⟩ k) := by
  obtain ⟨⟨e0, e1⟩, -⟩ := blockIdx0 t
  unfold iblk0
  rw [View.read_apply]
  show V c main_v16 _ = V c main_v16 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Block t of the node rows is rows 5000·t … 5000·t + 4999 of the array. -/
theorem nodeBlk0 (c : Dev nD) (t : Fin cfg0.N) (p : Fin 5000) (k : Fin 128) (h : 5000 * t.val + p.val < 100000) :
    (iblk0 V c 1 t : Vec Ideal S5000x128 .f32) (ix2 p k)
      = (V c main_arg0 : S100000x128.Idx → EReal) (ix2 ⟨5000 * t.val + p.val, h⟩ k) := by
  obtain ⟨-, ⟨e0, e1⟩, -⟩ := blockIdx0 t
  unfold iblk0
  rw [View.read_apply]
  show V c main_arg0 _ = V c main_arg0 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The left weights' one block is the whole matrix. -/
theorem wlBlk0 (c : Dev nD) (t : Fin cfg0.N) :
    (iblk0 V c 2 t : Vec Ideal S128x128 .f32) = (V c main_v0 : S128x128.Idx → EReal) := by
  obtain ⟨-, -, ⟨e0, e1⟩, -⟩ := blockIdx0 t
  funext y
  unfold iblk0
  rw [View.read_apply]
  show V c main_v0 _ = V c main_v0 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The right weights' one block is the whole matrix. -/
theorem wrBlk0 (c : Dev nD) (t : Fin cfg0.N) :
    (iblk0 V c 4 t : Vec Ideal S128x128 .f32) = (V c main_v1 : S128x128.Idx → EReal) := by
  obtain ⟨-, -, -, -, ⟨e0, e1⟩, -⟩ := blockIdx0 t
  funext y
  unfold iblk0
  rw [View.read_apply]
  show V c main_v1 _ = V c main_v1 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The left bias's one block is the whole row. -/
theorem blBlk0 (c : Dev nD) (t : Fin cfg0.N) :
    (iblk0 V c 3 t : Vec Ideal S1x128 .f32) = (V c main_v17 : S1x128.Idx → EReal) := by
  obtain ⟨-, -, -, ⟨e0, e1⟩, -⟩ := blockIdx0 t
  funext y
  unfold iblk0
  rw [View.read_apply]
  show V c main_v17 _ = V c main_v17 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The right bias's one block is the whole row. -/
theorem brBlk0 (c : Dev nD) (t : Fin cfg0.N) :
    (iblk0 V c 5 t : Vec Ideal S1x128 .f32) = (V c main_v18 : S1x128.Idx → EReal) := by
  obtain ⟨-, -, -, -, -, ⟨e0, e1⟩, -⟩ := blockIdx0 t
  funext y
  unfold iblk0
  rw [View.read_apply]
  show V c main_v18 _ = V c main_v18 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Entry (p, q) of the result's block t sits at entry (5000·t + p, q) of the result array. -/
theorem outEmb0 (t : Fin cfg0.N) (p : Fin 5000) (q : Fin 128) (h : 5000 * t.val + p.val < 100000) :
    ((cfg0.win 6).blk t).view.emb (ix2 p q) = (ix2 ⟨5000 * t.val + p.val, h⟩ q : S100000x128.Idx) := by
  obtain ⟨-, -, -, -, -, -, e0, e1⟩ := blockIdx0 t
  funext a
  apply Fin.ext
  match a with
  | ⟨0, _⟩ => show win0_6.index t (0 : Fin 2) * 5000 + 1 * p.val = 5000 * t.val + p.val; rw [e0]; omega
  | ⟨1, _⟩ => show win0_6.index t (1 : Fin 2) * 128 + 1 * q.val = q.val; rw [e1]; omega

/-- What the body stores, at entry (p, q): the row function of row p of the loaded blocks (each loaded and stored through
    the whole-buffer rectangle). -/
theorem out0_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    out0_6 (F := Ideal) x0 x1 x2 x3 x4 x5 (ix2 p q)
      = normRelu (lin (fun k => x0 (ix2 p k)) (fun k => x1 (ix2 p k)) x2 x4 (fun j => x3 (ix2 (0 : Fin 1) j))
          (fun j => x5 (ix2 (0 : Fin 1) j))) q := by
  unfold out0_6
  rw [View.canon_unit_zero zeroOff]
  simp only [View.ld_unit_zero (S := S5000x128) zeroOff, View.ld_unit_zero (S := S128x128) zeroOff,
    View.ld_unit_zero (S := S1x128) zeroOff]
  exact Rows.pay0_apply x0 x1 x2 x4 x3 x5 p q

/-- What point t writes back is block t of layer 1 of the arrays as the region finds them. -/
theorem flushed_eq0 (c : Dev nD) (t : Fin cfg0.N) :
    (dat0 (F := Ideal) V c).flushed 6 t = ((cfg0.win 6).blk t).view.read (Elt Ideal)
      (hidden (V c main_v16) (V c main_arg0) (V c main_v0) (V c main_v1)
        (fun j => V c main_v17 (ix2 (0 : Fin 1) j)) (fun j => V c main_v18 (ix2 (0 : Fin 1) j))) := by
  show (cfg0.win 6).cut (grid0.coords t) ((dat0 V c).after 6 t) = _
  rw [after0_6]
  funext y
  obtain ⟨p, q, rfl⟩ : ∃ (p : Fin 5000) (q : Fin 128), y = ix2 p q := ⟨y 0, y 1, eq_ix2 y⟩
  have hr : 5000 * t.val + p.val < 100000 := by have := pt_lt0 t; have := p.isLt; omega
  rw [View.read_apply, outEmb0 t p q hr]
  refine (out0_apply _ _ _ _ _ _ p q).trans ?_
  exact congrArg (fun f => normRelu f q)
    (lin_congr (funext fun k => aggBlk0 V c t p k hr) (funext fun k => nodeBlk0 V c t p k hr)
      (wlBlk0 V c t) (wrBlk0 V c t)
      (funext fun j => congrFun (blBlk0 V c t) (ix2 (0 : Fin 1) j))
      (funext fun j => congrFun (brBlk0 V c t) (ix2 (0 : Fin 1) j)))

/-- An index of the result array is in point t's block iff each coordinate is in the block's range on its axis. -/
theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v19).slice (win0_6.rect t)).set ↔ _
  rw [View.set_slice_whole, Rect.mem_set_unit]
  exact Iff.rfl

/-- The twenty blocks tile the rows: row r lies in the block of point r / 5000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hq : (i 0).val / 5000 < cfg0.N := lt_of_lt_of_eq (by omega : (i 0).val / 5000 < 20) N_0.symm
  obtain ⟨-, -, -, -, -, -, e0, e1⟩ := blockIdx0 ⟨(i 0).val / 5000, hq⟩
  refine ⟨⟨(i 0).val / 5000, hq⟩, flush0_6 _, ?_⟩
  rw [mem_blk0]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hq⟩ (1 : Fin 2) * 128 ≤ (i 1).val
      ∧ (i 1).val < win0_6.index ⟨(i 0).val / 5000, hq⟩ (1 : Fin 2) * 128 + 128
    rw [e1]; omega

/-- The first region's output array at its exit: layer 1 of the arrays at its entry. -/
theorem arr0 (c : Dev nD) :
    (dat0 (F := Ideal) V c).arrAt 6 cfg0.N
      = hidden (V c main_v16) (V c main_arg0) (V c main_v0) (V c main_v1)
          (fun j => V c main_v17 (ix2 (0 : Fin 1) j)) (fun j => V c main_v18 (ix2 (0 : Fin 1) j)) :=
  (dat0 (F := Ideal) V c).arrAt_eq_of_cover 6 _ (fun t _ => flushed_eq0 V c t) cover0

/-! ## The second region -/

/-- The second region's block indices over its twenty points: the row-blocked windows (aggregated rows, the node rows,
    the result) sit at block (t, 0), the weights and biases at block (0, 0). -/
theorem blockIdx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- A point's number is below twenty. -/
theorem pt_lt1 (t : Fin cfg1.N) : t.val < 20 := lt_of_lt_of_eq t.isLt N_1

/-- Block t of the aggregated rows is rows 5000·t … 5000·t + 4999 of the array. -/
theorem aggBlk1 (c : Dev nD) (t : Fin cfg1.N) (p : Fin 5000) (k : Fin 128) (h : 5000 * t.val + p.val < 100000) :
    (iblk1 V c 0 t : Vec Ideal S5000x128 .f32) (ix2 p k)
      = (V c main_v32 : S100000x128.Idx → EReal) (ix2 ⟨5000 * t.val + p.val, h⟩ k) := by
  obtain ⟨⟨e0, e1⟩, -⟩ := blockIdx1 t
  unfold iblk1
  rw [View.read_apply]
  show V c main_v32 _ = V c main_v32 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- Block t of the node rows is rows 5000·t … 5000·t + 4999 of the array. -/
theorem nodeBlk1 (c : Dev nD) (t : Fin cfg1.N) (p : Fin 5000) (k : Fin 128) (h : 5000 * t.val + p.val < 100000) :
    (iblk1 V c 1 t : Vec Ideal S5000x128 .f32) (ix2 p k)
      = (V c main_v19 : S100000x128.Idx → EReal) (ix2 ⟨5000 * t.val + p.val, h⟩ k) := by
  obtain ⟨-, ⟨e0, e1⟩, -⟩ := blockIdx1 t
  unfold iblk1
  rw [View.read_apply]
  show V c main_v19 _ = V c main_v19 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The left weights' one block is the whole matrix. -/
theorem wlBlk1 (c : Dev nD) (t : Fin cfg1.N) :
    (iblk1 V c 2 t : Vec Ideal S128x64 .f32) = (V c main_v2 : S128x64.Idx → EReal) := by
  obtain ⟨-, -, ⟨e0, e1⟩, -⟩ := blockIdx1 t
  funext y
  unfold iblk1
  rw [View.read_apply]
  show V c main_v2 _ = V c main_v2 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 64 + 1 * (y 1).val = (y 1).val; rw [e1]; omega

/-- The right weights' one block is the whole matrix. -/
theorem wrBlk1 (c : Dev nD) (t : Fin cfg1.N) :
    (iblk1 V c 4 t : Vec Ideal S128x64 .f32) = (V c main_v3 : S128x64.Idx → EReal) := by
  obtain ⟨-, -, -, -, ⟨e0, e1⟩, -⟩ := blockIdx1 t
  funext y
  unfold iblk1
  rw [View.read_apply]
  show V c main_v3 _ = V c main_v3 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 64 + 1 * (y 1).val = (y 1).val; rw [e1]; omega

/-- The left bias's one block is the whole row. -/
theorem blBlk1 (c : Dev nD) (t : Fin cfg1.N) :
    (iblk1 V c 3 t : Vec Ideal S1x64 .f32) = (V c main_v33 : S1x64.Idx → EReal) := by
  obtain ⟨-, -, -, ⟨e0, e1⟩, -⟩ := blockIdx1 t
  funext y
  unfold iblk1
  rw [View.read_apply]
  show V c main_v33 _ = V c main_v33 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The right bias's one block is the whole row. -/
theorem brBlk1 (c : Dev nD) (t : Fin cfg1.N) :
    (iblk1 V c 5 t : Vec Ideal S1x64 .f32) = (V c main_v34 : S1x64.Idx → EReal) := by
  obtain ⟨-, -, -, -, -, ⟨e0, e1⟩, -⟩ := blockIdx1 t
  funext y
  unfold iblk1
  rw [View.read_apply]
  show V c main_v34 _ = V c main_v34 _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 64 + 1 * (y 1).val = (y 1).val; rw [e1]; omega

/-- Entry (p, q) of the result's block t sits at entry (5000·t + p, q) of the result array. -/
theorem outEmb1 (t : Fin cfg1.N) (p : Fin 5000) (q : Fin 64) (h : 5000 * t.val + p.val < 100000) :
    ((cfg1.win 6).blk t).view.emb (ix2 p q) = (ix2 ⟨5000 * t.val + p.val, h⟩ q : S100000x64.Idx) := by
  obtain ⟨-, -, -, -, -, -, e0, e1⟩ := blockIdx1 t
  funext a
  apply Fin.ext
  match a with
  | ⟨0, _⟩ => show win1_6.index t (0 : Fin 2) * 5000 + 1 * p.val = 5000 * t.val + p.val; rw [e0]; omega
  | ⟨1, _⟩ => show win1_6.index t (1 : Fin 2) * 64 + 1 * q.val = q.val; rw [e1]; omega

/-- What the body stores, at entry (p, q): the row function of row p of the loaded blocks (each loaded and stored through
    the whole-buffer rectangle). -/
theorem out1_apply (x0 x1 : Vec Ideal S5000x128 .f32) (x2 : Vec Ideal S128x64 .f32) (x3 : Vec Ideal S1x64 .f32)
    (x4 : Vec Ideal S128x64 .f32) (x5 : Vec Ideal S1x64 .f32) (p : Fin 5000) (q : Fin 64) :
    out1_6 (F := Ideal) x0 x1 x2 x3 x4 x5 (ix2 p q)
      = logSoftmax (lin (fun k => x0 (ix2 p k)) (fun k => x1 (ix2 p k)) x2 x4 (fun j => x3 (ix2 (0 : Fin 1) j))
          (fun j => x5 (ix2 (0 : Fin 1) j))) q := by
  unfold out1_6
  rw [View.canon_unit_zero zeroOff]
  simp only [View.ld_unit_zero (S := S5000x128) zeroOff, View.ld_unit_zero (S := S128x64) zeroOff,
    View.ld_unit_zero (S := S1x64) zeroOff]
  exact Rows.pay1_apply x0 x1 x2 x4 x3 x5 p q

/-- What point t writes back is block t of layer 2 of the arrays as the region finds them. -/
theorem flushed_eq1 (c : Dev nD) (t : Fin cfg1.N) :
    (dat1 (F := Ideal) V c).flushed 6 t = ((cfg1.win 6).blk t).view.read (Elt Ideal)
      (scores (V c main_v32) (V c main_v19) (V c main_v2) (V c main_v3)
        (fun j => V c main_v33 (ix2 (0 : Fin 1) j)) (fun j => V c main_v34 (ix2 (0 : Fin 1) j))) := by
  show (cfg1.win 6).cut (grid1.coords t) ((dat1 V c).after 6 t) = _
  rw [after1_6]
  funext y
  obtain ⟨p, q, rfl⟩ : ∃ (p : Fin 5000) (q : Fin 64), y = ix2 p q := ⟨y 0, y 1, eq_ix2 y⟩
  have hr : 5000 * t.val + p.val < 100000 := by have := pt_lt1 t; have := p.isLt; omega
  rw [View.read_apply, outEmb1 t p q hr]
  refine (out1_apply _ _ _ _ _ _ p q).trans ?_
  exact congrArg (fun f => logSoftmax f q)
    (lin_congr (funext fun k => aggBlk1 V c t p k hr) (funext fun k => nodeBlk1 V c t p k hr)
      (wlBlk1 V c t) (wrBlk1 V c t)
      (funext fun j => congrFun (blBlk1 V c t) (ix2 (0 : Fin 1) j))
      (funext fun j => congrFun (brBlk1 V c t) (ix2 (0 : Fin 1) j)))

/-- An index of the result array is in point t's block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v35).slice (win1_6.rect t)).set ↔ _
  rw [View.set_slice_whole, Rect.mem_set_unit]
  exact Iff.rfl

/-- The twenty blocks tile the rows: row r lies in the block of point r / 5000. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hq : (i 0).val / 5000 < cfg1.N := lt_of_lt_of_eq (by omega : (i 0).val / 5000 < 20) N_1.symm
  obtain ⟨-, -, -, -, -, -, e0, e1⟩ := blockIdx1 ⟨(i 0).val / 5000, hq⟩
  refine ⟨⟨(i 0).val / 5000, hq⟩, flush1_6 _, ?_⟩
  rw [mem_blk1]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, hq⟩ (1 : Fin 2) * 64 ≤ (i 1).val
      ∧ (i 1).val < win1_6.index ⟨(i 0).val / 5000, hq⟩ (1 : Fin 2) * 64 + 64
    rw [e1]; omega

/-- The second region's output array at its exit: layer 2 of the arrays at its entry. -/
theorem arr1 (c : Dev nD) :
    (dat1 (F := Ideal) V c).arrAt 6 cfg1.N
      = scores (V c main_v32) (V c main_v19) (V c main_v2) (V c main_v3)
          (fun j => V c main_v33 (ix2 (0 : Fin 1) j)) (fun j => V c main_v34 (ix2 (0 : Fin 1) j)) :=
  (dat1 (F := Ideal) V c).arrAt_eq_of_cover 6 _ (fun t _ => flushed_eq1 V c t) cover1

end Cert.KernelIdeal.Arrays

end
-- ==== Proof.KernelValue.lean ====
/-
  The kernel program's result as one function of its twelve arguments.

  @main is four segments: host operations, the first kernel region, host operations, the second kernel region. Reading
  the buffer contents back from the end: the result buffer is the second region's output array, which is layer 2
  (`scores`) of the contents at that region's entry; there the first operand is the second host stretch's aggregation
  (the scaled gather of the hidden activations, summed per target row) and the second operand is the hidden activations
  themselves, untouched by the host stretch; the hidden activations are the first region's output array, layer 1
  (`hidden`) of the contents at ITS entry, where the first operand is the first host stretch's aggregation of the
  features. The weights enter each region transposed by the first host stretch and each bias as a one-row array whose
  entry (0, j) is the bias's entry j. `aggregate` names the host's gather / scale / scatter-add chain once; it is never
  opened.
-/
import proofs.«116038_j67053029425277_1_alg».proof.Proof.KernelArrays
import proofs.«116038_j67053029425277_1_alg».proof.Proof.KernelRun
import Idealize.ShloMosaic.Lib.StableHlo.Run
import Idealize.ShloMosaic.Lib.ValueLayout

set_option maxRecDepth 16384

noncomputable section

namespace Cert.KernelIdeal.Value

open Idealize.ShloMosaic Idealize.ShloMosaic.TcCoe Idealize.SL.Sem Idealize.ShloMosaic.ValueIdx Idealize.ShloMosaic.StableHlo
open Cert.KernelIdeal Cert.KernelIdeal.Gen Cert.SageRows

/-- The host's neighbourhood aggregation of an array `z` of node features: row `cols e` of `z` (a negative index wrapped
    once by the number of rows) scaled by `vals e`, summed into row `rows e` of an all-zero array. -/
def aggregate (z : FVec Ideal S100000x128 .f32) (rows cols : IVec S1600000 32) (vals : FVec Ideal S1600000 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 rows)
    (mulf (F := Ideal) (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 z
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The hidden activations: layer 1 of the aggregated features and the features. -/
def hiddenOf (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) : (⟨S100000x128, .f32⟩ : BufTy).Contents (Elt Ideal) :=
  hidden (aggregate x0 x1 x2 x3) x0 (transpose S128x128 [1, 0] x4 transposes_S128x128_S128x128_1_0) (transpose S128x128 [1, 0] x6 transposes_S128x128_S128x128_1_0)
    (fun j => x5 (ix1 j)) (fun j => x7 (ix1 j))

/-- The program's result: layer 2 of the aggregated hidden activations and the hidden activations. -/
def result (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S64, .f32⟩ : BufTy).Contents (Elt Ideal)) : (⟨S100000x64, .f32⟩ : BufTy).Contents (Elt Ideal) :=
  scores (aggregate (hiddenOf x0 x1 x2 x3 x4 x5 x6 x7) x1 x2 x3) (hiddenOf x0 x1 x2 x3 x4 x5 x6 x7)
    (transpose S128x64 [1, 0] x8 transposes_S64x128_S128x64_1_0) (transpose S128x64 [1, 0] x10 transposes_S64x128_S128x64_1_0)
    (fun j => x9 (ix1 j)) (fun j => x11 (ix1 j))

variable (m : (ℓ : Loc nD τ sig) → Buf (Elt Ideal) ℓ) (ρ : Dev nD → PrngReg)

/-- Core `c`'s launch contents of a buffer. -/
abbrev inp (c : Dev nD) (b : Ref sig .tc) : Buf (Elt Ideal) ((c : Thread nD τ).loc b) := m ((c : Thread nD τ).loc b)

/-! ## The first host stretch, read at the buffers the first region takes -/

theorem entry0_agg (c : Dev nD) : V1 m ρ c main_v16 = aggregate (inp m c main_arg0) (inp m c main_arg1) (inp m c main_arg2) (inp m c main_arg3) := by
  show StableHlo.after hostOps0 (W0 m ρ c) (Proc.devRef .tc main_v16) = _
  after_results_simp
  rfl

theorem entry0_x (c : Dev nD) : V1 m ρ c main_arg0 = inp m c main_arg0 := by
  show StableHlo.after hostOps0 (W0 m ρ c) (Proc.devRef .tc main_arg0) = _
  after_results

theorem entry0_wl (c : Dev nD) : V1 m ρ c main_v0 = transpose S128x128 [1, 0] (inp m c main_arg4) transposes_S128x128_S128x128_1_0 := by
  show StableHlo.after hostOps0 (W0 m ρ c) (Proc.devRef .tc main_v0) = _
  after_results

theorem entry0_wr (c : Dev nD) : V1 m ρ c main_v1 = transpose S128x128 [1, 0] (inp m c main_arg6) transposes_S128x128_S128x128_1_0 := by
  show StableHlo.after hostOps0 (W0 m ρ c) (Proc.devRef .tc main_v1) = _
  after_results

/-- The left bias as the first region finds it: a one-row array whose entry (0, j) is the bias's entry j. -/
theorem entry0_bl (c : Dev nD) (j : Fin 128) : V1 m ρ c main_v17 (ix2 (0 : Fin 1) j) = inp m c main_arg5 (ix1 j) := by
  have e : V1 m ρ c main_v17 = shapeCast S1x128 (inp m c main_arg5) shapeCasts_S128_S1x128 := by
    show StableHlo.after hostOps0 (W0 m ρ c) (Proc.devRef .tc main_v17) = _
    after_results
    rfl
  rw [e]
  exact shapeCast_a_1a_apply _ _ 0 j

theorem entry0_br (c : Dev nD) (j : Fin 128) : V1 m ρ c main_v18 (ix2 (0 : Fin 1) j) = inp m c main_arg7 (ix1 j) := by
  have e : V1 m ρ c main_v18 = shapeCast S1x128 (inp m c main_arg7) shapeCasts_S128_S1x128 := by
    show StableHlo.after hostOps0 (W0 m ρ c) (Proc.devRef .tc main_v18) = _
    after_results
    rfl
  rw [e]
  exact shapeCast_a_1a_apply _ _ 0 j

/-! ## The first region's output: the hidden activations -/

theorem hidden_eq (c : Dev nD) :
    W2 m ρ c (Proc.devRef .tc main_v19)
      = hiddenOf (inp m c main_arg0) (inp m c main_arg1) (inp m c main_arg2) (inp m c main_arg3) (inp m c main_arg4) (inp m c main_arg5) (inp m c main_arg6) (inp m c main_arg7) := by
  refine (W2_arr m ρ c 6).trans ((Arrays.arr0 (V1 m ρ) c).trans ?_)
  rw [entry0_agg, entry0_x, entry0_wl, entry0_wr, funext (entry0_bl m ρ c), funext (entry0_br m ρ c)]
  rfl

/-! ## What the first region leaves alone, read back to the launch -/

theorem kept_main_arg1 (c : Dev nD) : W2 m ρ c (Proc.devRef .tc main_arg1) = inp m c main_arg1 :=
  (W2_of_ne m ρ c main_arg1 (by decide)).trans (by
    show StableHlo.after hostOps0 (W0 m ρ c) (Proc.devRef .tc main_arg1) = _
    after_results)
theorem kept_main_arg2 (c : Dev nD) : W2 m ρ c (Proc.devRef .tc main_arg2) = inp m c main_arg2 :=
  (W2_of_ne m ρ c main_arg2 (by decide)).trans (by
    show StableHlo.after hostOps0 (W0 m ρ c) (Proc.devRef .tc main_arg2) = _
    after_results)
theorem kept_main_arg3 (c : Dev nD) : W2 m ρ c (Proc.devRef .tc main_arg3) = inp m c main_arg3 :=
  (W2_of_ne m ρ c main_arg3 (by decide)).trans (by
    show StableHlo.after hostOps0 (W0 m ρ c) (Proc.devRef .tc main_arg3) = _
    after_results)
theorem kept_main_arg9 (c : Dev nD) : W2 m ρ c (Proc.devRef .tc main_arg9) = inp m c main_arg9 :=
  (W2_of_ne m ρ c main_arg9 (by decide)).trans (by
    show StableHlo.after hostOps0 (W0 m ρ c) (Proc.devRef .tc main_arg9) = _
    after_results)
theorem kept_main_arg11 (c : Dev nD) : W2 m ρ c (Proc.devRef .tc main_arg11) = inp m c main_arg11 :=
  (W2_of_ne m ρ c main_arg11 (by decide)).trans (by
    show StableHlo.after hostOps0 (W0 m ρ c) (Proc.devRef .tc main_arg11) = _
    after_results)
/-- The second layer's left weights, transposed by the first host stretch and untouched since. -/
theorem kept_wl2 (c : Dev nD) : W2 m ρ c (Proc.devRef .tc main_v2) = transpose S128x64 [1, 0] (inp m c main_arg8) transposes_S64x128_S128x64_1_0 :=
  (W2_of_ne m ρ c main_v2 (by decide)).trans (by
    show StableHlo.after hostOps0 (W0 m ρ c) (Proc.devRef .tc main_v2) = _
    after_results)
theorem kept_wr2 (c : Dev nD) : W2 m ρ c (Proc.devRef .tc main_v3) = transpose S128x64 [1, 0] (inp m c main_arg10) transposes_S64x128_S128x64_1_0 :=
  (W2_of_ne m ρ c main_v3 (by decide)).trans (by
    show StableHlo.after hostOps0 (W0 m ρ c) (Proc.devRef .tc main_v3) = _
    after_results)

/-! ## The second host stretch, read at the buffers the second region takes -/

theorem entry1_agg (c : Dev nD) :
    V3 m ρ c main_v32 = aggregate (W2 m ρ c (Proc.devRef .tc main_v19)) (W2 m ρ c (Proc.devRef .tc main_arg1)) (W2 m ρ c (Proc.devRef .tc main_arg2)) (W2 m ρ c (Proc.devRef .tc main_arg3)) := by
  show StableHlo.after hostOps1 (W2 m ρ c) (Proc.devRef .tc main_v32) = _
  after_results_simp
  rfl

theorem entry1_h (c : Dev nD) : V3 m ρ c main_v19 = W2 m ρ c (Proc.devRef .tc main_v19) := by
  show StableHlo.after hostOps1 (W2 m ρ c) (Proc.devRef .tc main_v19) = _
  after_results

theorem entry1_wl (c : Dev nD) : V3 m ρ c main_v2 = W2 m ρ c (Proc.devRef .tc main_v2) := by
  show StableHlo.after hostOps1 (W2 m ρ c) (Proc.devRef .tc main_v2) = _
  after_results

theorem entry1_wr (c : Dev nD) : V3 m ρ c main_v3 = W2 m ρ c (Proc.devRef .tc main_v3) := by
  show StableHlo.after hostOps1 (W2 m ρ c) (Proc.devRef .tc main_v3) = _
  after_results

theorem entry1_bl (c : Dev nD) (j : Fin 64) : V3 m ρ c main_v33 (ix2 (0 : Fin 1) j) = inp m c main_arg9 (ix1 j) := by
  have e : V3 m ρ c main_v33 = shapeCast S1x64 (W2 m ρ c (Proc.devRef .tc main_arg9)) shapeCasts_S64_S1x64 := by
    show StableHlo.after hostOps1 (W2 m ρ c) (Proc.devRef .tc main_v33) = _
    after_results
    rfl
  rw [e, kept_main_arg9]
  exact shapeCast_a_1a_apply _ _ 0 j

theorem entry1_br (c : Dev nD) (j : Fin 64) : V3 m ρ c main_v34 (ix2 (0 : Fin 1) j) = inp m c main_arg11 (ix1 j) := by
  have e : V3 m ρ c main_v34 = shapeCast S1x64 (W2 m ρ c (Proc.devRef .tc main_arg11)) shapeCasts_S64_S1x64 := by
    show StableHlo.after hostOps1 (W2 m ρ c) (Proc.devRef .tc main_v34) = _
    after_results
    rfl
  rw [e, kept_main_arg11]
  exact shapeCast_a_1a_apply _ _ 0 j

/-! ## The result buffer -/

/-- At the last boundary the result buffer holds `result` of the twelve arguments as launched. -/
theorem result_eq (c : Dev nD) :
    W4 m ρ c (Proc.devRef .tc main_v35)
      = result (inp m c main_arg0) (inp m c main_arg1) (inp m c main_arg2) (inp m c main_arg3) (inp m c main_arg4) (inp m c main_arg5) (inp m c main_arg6) (inp m c main_arg7)
          (inp m c main_arg8) (inp m c main_arg9) (inp m c main_arg10) (inp m c main_arg11) := by
  refine (W4_arr m ρ c 6).trans ((Arrays.arr1 (V3 m ρ) c).trans ?_)
  rw [entry1_agg, entry1_h, entry1_wl, entry1_wr, funext (entry1_bl m ρ c), funext (entry1_br m ρ c),
    hidden_eq, kept_main_arg1, kept_main_arg2, kept_main_arg3, kept_wl2, kept_wr2]
  rfl

/-- The run, read: every weakly fair execution ends with the result buffer at `result` of the arguments, the arguments
    unchanged. -/
theorem run : θ_run defs (onTc (τ := τ) (main (F := Ideal))) ⟨m, fun _ => 0, ρ⟩ (fun r => ∀ c : Dev nD,
      r.2.mem ((c.tc : Thread nD τ).loc main_v35)
        = result (inp m c main_arg0) (inp m c main_arg1) (inp m c main_arg2) (inp m c main_arg3) (inp m c main_arg4) (inp m c main_arg5) (inp m c main_arg6) (inp m c main_arg7)
            (inp m c main_arg8) (inp m c main_arg9) (inp m c main_arg10) (inp m c main_arg11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩) (Cert.KernelIdeal.GenP.run_named (F := Ideal) m ρ)

end Cert.KernelIdeal.Value

end
-- ==== Proof.RefStages.lean ====
/-
  The reference's result buffer after its run, stage by stage.

  The run of the reference's straight line of 81 host operations leaves every buffer at the fold of the operations'
  results over the launch contents. Read as ONE closed term of the twelve arguments the result is large, because several
  intermediate arrays are used more than once (the pre-activation by its norm and its quotient, the hidden activations by
  the second aggregation and the second right product, the scores by their maximum and their difference, the shifted
  scores by the exponentials and the final difference). So the line is cut after each such array, and once more around the one
  operation that folds a row's maximum — eight consecutive stretches — and each stretch is read on its own: from contents in which the stretch's inputs hold the staged values
  (`val_…` of the arguments), its last operation's result holds the next staged value; the arguments, and the hidden
  activations while they are still to be read, pass through unchanged. Chaining the eight gives the result buffer at
  `val_main_v56` of the arguments.
-/
import proofs.«116038_j67053029425277_1_alg».proof.Proof.RefRun
import proofs.«116038_j67053029425277_1_alg».proof.Proof.RefRead

set_option maxRecDepth 8192

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

variable (W : Valuation τ sig (Elt F))

/-! ## What passes through each stretch unchanged -/

theorem kept_1 : after ops_1 W (Proc.devRef .tc main_arg0) = W (Proc.devRef .tc main_arg0)
      ∧ after ops_1 W (Proc.devRef .tc main_arg1) = W (Proc.devRef .tc main_arg1)
      ∧ after ops_1 W (Proc.devRef .tc main_arg2) = W (Proc.devRef .tc main_arg2)
      ∧ after ops_1 W (Proc.devRef .tc main_arg3) = W (Proc.devRef .tc main_arg3)
      ∧ after ops_1 W (Proc.devRef .tc main_arg4) = W (Proc.devRef .tc main_arg4)
      ∧ after ops_1 W (Proc.devRef .tc main_arg5) = W (Proc.devRef .tc main_arg5)
      ∧ after ops_1 W (Proc.devRef .tc main_arg6) = W (Proc.devRef .tc main_arg6)
      ∧ after ops_1 W (Proc.devRef .tc main_arg7) = W (Proc.devRef .tc main_arg7)
      ∧ after ops_1 W (Proc.devRef .tc main_arg8) = W (Proc.devRef .tc main_arg8)
      ∧ after ops_1 W (Proc.devRef .tc main_arg9) = W (Proc.devRef .tc main_arg9)
      ∧ after ops_1 W (Proc.devRef .tc main_arg10) = W (Proc.devRef .tc main_arg10)
      ∧ after ops_1 W (Proc.devRef .tc main_arg11) = W (Proc.devRef .tc main_arg11) :=
  ⟨by after_results_simp, by after_results_simp, by after_results_simp, by after_results_simp, by after_results_simp, by after_results_simp, by after_results_simp, by after_results_simp, by after_results_simp, by after_results_simp, by after_results_simp, by after_results_simp⟩
theorem kept_2 : after ops_2 W (Proc.devRef .tc main_arg1) = W (Proc.devRef .tc main_arg1)
      ∧ after ops_2 W (Proc.devRef .tc main_arg2) = W (Proc.devRef .tc main_arg2)
      ∧ after ops_2 W (Proc.devRef .tc main_arg3) = W (Proc.devRef .tc main_arg3)
      ∧ after ops_2 W (Proc.devRef .tc main_arg8) = W (Proc.devRef .tc main_arg8)
      ∧ after ops_2 W (Proc.devRef .tc main_arg9) = W (Proc.devRef .tc main_arg9)
      ∧ after ops_2 W (Proc.devRef .tc main_arg10) = W (Proc.devRef .tc main_arg10)
      ∧ after ops_2 W (Proc.devRef .tc main_arg11) = W (Proc.devRef .tc main_arg11) :=
  ⟨by after_results_simp, by after_results_simp, by after_results_simp, by after_results_simp, by after_results_simp, by after_results_simp, by after_results_simp⟩
theorem kept_3 : after ops_3 W (Proc.devRef .tc main_arg1) = W (Proc.devRef .tc main_arg1)
      ∧ after ops_3 W (Proc.devRef .tc main_arg2) = W (Proc.devRef .tc main_arg2)
      ∧ after ops_3 W (Proc.devRef .tc main_arg3) = W (Proc.devRef .tc main_arg3)
      ∧ after ops_3 W (Proc.devRef .tc main_arg8) = W (Proc.devRef .tc main_arg8)
      ∧ after ops_3 W (Proc.devRef .tc main_arg9) = W (Proc.devRef .tc main_arg9)
      ∧ after ops_3 W (Proc.devRef .tc main_arg10) = W (Proc.devRef .tc main_arg10)
      ∧ after ops_3 W (Proc.devRef .tc main_arg11) = W (Proc.devRef .tc main_arg11) :=
  ⟨by after_results_simp, by after_results_simp, by after_results_simp, by after_results_simp, by after_results_simp, by after_results_simp, by after_results_simp⟩
theorem kept_4 : after ops_4 W (Proc.devRef .tc main_arg8) = W (Proc.devRef .tc main_arg8)
      ∧ after ops_4 W (Proc.devRef .tc main_arg9) = W (Proc.devRef .tc main_arg9)
      ∧ after ops_4 W (Proc.devRef .tc main_arg10) = W (Proc.devRef .tc main_arg10)
      ∧ after ops_4 W (Proc.devRef .tc main_arg11) = W (Proc.devRef .tc main_arg11)
      ∧ after ops_4 W (Proc.devRef .tc main_v31) = W (Proc.devRef .tc main_v31) :=
  ⟨by after_results_simp, by after_results_simp, by after_results_simp, by after_results_simp, by after_results_simp⟩

/-! ## Each stretch's last result, from its inputs -/

/-- Operations 1 … 16: the aggregated features. -/
theorem stage_1 : after ops_1 W (Proc.devRef .tc main_v12) = val_main_v12 (F := F) (W (Proc.devRef .tc main_arg0)) (W (Proc.devRef .tc main_arg1)) (W (Proc.devRef .tc main_arg2)) (W (Proc.devRef .tc main_arg3)) := by
  after_results_simp
  try simp only [TRef.ofBuf, TRef.toBuf, cast_eq]
  rfl

/-- Operations 17 … 27: the pre-activation of layer 1. -/
theorem stage_2 (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (h12 : W (Proc.devRef .tc main_v12) = val_main_v12 (F := F) x0 x1 x2 x3) (h0 : W (Proc.devRef .tc main_arg0) = x0) (h4 : W (Proc.devRef .tc main_arg4) = x4)
    (h5 : W (Proc.devRef .tc main_arg5) = x5) (h6 : W (Proc.devRef .tc main_arg6) = x6) (h7 : W (Proc.devRef .tc main_arg7) = x7) :
    after ops_2 W (Proc.devRef .tc main_v23) = val_main_v23 (F := F) x0 x1 x2 x3 x4 x5 x6 x7 := by
  after_results_simp
  try simp only [TRef.ofBuf, TRef.toBuf, cast_eq]
  rw [h12, h0, h4, h5, h6, h7]
  rfl

/-- Operations 28 … 39: the hidden activations. -/
theorem stage_3 (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (h23 : W (Proc.devRef .tc main_v23) = val_main_v23 (F := F) x0 x1 x2 x3 x4 x5 x6 x7) :
    after ops_3 W (Proc.devRef .tc main_v31) = val_main_v31 (F := F) x0 x1 x2 x3 x4 x5 x6 x7 := by
  after_results_simp
  try simp only [TRef.ofBuf, TRef.toBuf, cast_eq]
  rw [h23]
  rfl

/-- Operations 40 … 55: the hidden activations aggregated. -/
theorem stage_4 (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (h31 : W (Proc.devRef .tc main_v31) = val_main_v31 (F := F) x0 x1 x2 x3 x4 x5 x6 x7) (h1 : W (Proc.devRef .tc main_arg1) = x1) (h2 : W (Proc.devRef .tc main_arg2) = x2) (h3 : W (Proc.devRef .tc main_arg3) = x3) :
    after ops_4 W (Proc.devRef .tc main_v44) = val_main_v44 (F := F) x0 x1 x2 x3 x4 x5 x6 x7 := by
  after_results_simp
  try simp only [TRef.ofBuf, TRef.toBuf, cast_eq]
  rw [h31, h1, h2, h3]
  rfl

/-- Operations 56 … 66: the scores before the log-softmax. -/
theorem stage_5 (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S64x128, .f32⟩ : BufTy).Contents (Elt F)) (x9 : (⟨S64, .f32⟩ : BufTy).Contents (Elt F)) (x10 : (⟨S64x128, .f32⟩ : BufTy).Contents (Elt F)) (x11 : (⟨S64, .f32⟩ : BufTy).Contents (Elt F))
    (h44 : W (Proc.devRef .tc main_v44) = val_main_v44 (F := F) x0 x1 x2 x3 x4 x5 x6 x7) (h31 : W (Proc.devRef .tc main_v31) = val_main_v31 (F := F) x0 x1 x2 x3 x4 x5 x6 x7)
    (h8 : W (Proc.devRef .tc main_arg8) = x8) (h9 : W (Proc.devRef .tc main_arg9) = x9) (h10 : W (Proc.devRef .tc main_arg10) = x10) (h11 : W (Proc.devRef .tc main_arg11) = x11) :
    after ops_5 W (Proc.devRef .tc main_v55) = val_main_v55 (F := F) x0 x1 x2 x3 x4 x5 x6 x7 x8 x9 x10 x11 := by
  after_results_simp
  try simp only [TRef.ofBuf, TRef.toBuf, cast_eq]
  rw [h44, h31, h8, h9, h10, h11]
  rfl

/-! The typed references of the log-softmax's operations carry their values through transports along equations between
    buffer types that hold by computation: each transport is the identity. -/

theorem toBuf_main_call1_cst (v : (⟨S_, .f32⟩ : BufTy).Contents (Elt F)) : (TRef.of (sig := sig) (T := ⟨S_, .f32⟩) main_call1_cst).toBuf v = v := rfl
theorem ofBuf_main_call1_cst (v : (⟨S_, .f32⟩ : BufTy).Contents (Elt F)) : (TRef.of (sig := sig) (T := ⟨S_, .f32⟩) main_call1_cst).ofBuf v = v := rfl
theorem toBuf_main_call1_v0 (v : (⟨S100000, .f32⟩ : BufTy).Contents (Elt F)) : (TRef.of (sig := sig) (T := ⟨S100000, .f32⟩) main_call1_v0).toBuf v = v := rfl
theorem ofBuf_main_call1_v0 (v : (⟨S100000, .f32⟩ : BufTy).Contents (Elt F)) : (TRef.of (sig := sig) (T := ⟨S100000, .f32⟩) main_call1_v0).ofBuf v = v := rfl
theorem toBuf_main_v55 (v : (⟨S100000x64, .f32⟩ : BufTy).Contents (Elt F)) : (TRef.of (sig := sig) (T := ⟨S100000x64, .f32⟩) main_v55).toBuf v = v := rfl
theorem ofBuf_main_v55 (v : (⟨S100000x64, .f32⟩ : BufTy).Contents (Elt F)) : (TRef.of (sig := sig) (T := ⟨S100000x64, .f32⟩) main_v55).ofBuf v = v := rfl

/-- Operations 67 … 68: each row's maximum of the scores. -/
theorem stage_6 (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S64x128, .f32⟩ : BufTy).Contents (Elt F)) (x9 : (⟨S64, .f32⟩ : BufTy).Contents (Elt F)) (x10 : (⟨S64x128, .f32⟩ : BufTy).Contents (Elt F)) (x11 : (⟨S64, .f32⟩ : BufTy).Contents (Elt F))
    (h55 : W (Proc.devRef .tc main_v55) = val_main_v55 (F := F) x0 x1 x2 x3 x4 x5 x6 x7 x8 x9 x10 x11) :
    after ops_6 W (Proc.devRef .tc main_call1_v0) = val_main_call1_v0 (F := F) x0 x1 x2 x3 x4 x5 x6 x7 x8 x9 x10 x11 := by
  after_results
  rw [h55]
  exact (toBuf_main_call1_v0 _).trans
    (congrArg₂ (fun a b => Host.reduce (FloatOps.maximumf (F := F) (φ := .f32)) a b reducesTo_S100000x64_S100000_d1 h_S_)
      (ofBuf_main_v55 _) ((congrArg _ (toBuf_main_call1_cst _)).trans (ofBuf_main_call1_cst _)))

/-- The scores pass through those two operations unchanged. -/
theorem kept_6 : after ops_6 W (Proc.devRef .tc main_v55) = W (Proc.devRef .tc main_v55) := by
  after_results

/-- Operations 69 … 74: the scores shifted by their row maxima. -/
theorem stage_7 (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S64x128, .f32⟩ : BufTy).Contents (Elt F)) (x9 : (⟨S64, .f32⟩ : BufTy).Contents (Elt F)) (x10 : (⟨S64x128, .f32⟩ : BufTy).Contents (Elt F)) (x11 : (⟨S64, .f32⟩ : BufTy).Contents (Elt F))
    (h55 : W (Proc.devRef .tc main_v55) = val_main_v55 (F := F) x0 x1 x2 x3 x4 x5 x6 x7 x8 x9 x10 x11)
    (h0 : W (Proc.devRef .tc main_call1_v0) = val_main_call1_v0 (F := F) x0 x1 x2 x3 x4 x5 x6 x7 x8 x9 x10 x11) :
    after ops_7 W (Proc.devRef .tc main_call1_v5) = val_main_call1_v5 (F := F) x0 x1 x2 x3 x4 x5 x6 x7 x8 x9 x10 x11 := by
  after_results_simp
  try simp only [TRef.ofBuf, TRef.toBuf, cast_eq]
  rw [h55, h0]
  rfl

/-- Operations 75 … 81: the log-softmax's last difference. -/
theorem stage_8 (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S64x128, .f32⟩ : BufTy).Contents (Elt F)) (x9 : (⟨S64, .f32⟩ : BufTy).Contents (Elt F)) (x10 : (⟨S64x128, .f32⟩ : BufTy).Contents (Elt F)) (x11 : (⟨S64, .f32⟩ : BufTy).Contents (Elt F))
    (hs : W (Proc.devRef .tc main_call1_v5) = val_main_call1_v5 (F := F) x0 x1 x2 x3 x4 x5 x6 x7 x8 x9 x10 x11) :
    after ops_8 W (Proc.devRef .tc main_v56) = val_main_v56 (F := F) x0 x1 x2 x3 x4 x5 x6 x7 x8 x9 x10 x11 := by
  after_results_simp
  try simp only [TRef.ofBuf, TRef.toBuf, cast_eq]
  rw [hs]
  rfl

/-! ## The chain -/

/-- After the whole line the result buffer holds the staged value of the arguments as the line found them. -/
theorem after_result :
    after ops W (Proc.devRef .tc main_v56) = val_main_v56 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_split, after_app, after_app, after_app, after_app, after_app, after_app, after_app]
  obtain ⟨a0, a1, a2, a3, a4, a5, a6, a7, a8, a9, a10, a11⟩ := kept_1 W
  obtain ⟨b1, b2, b3, b8, b9, b10, b11⟩ := kept_2 (after ops_1 W)
  obtain ⟨c1, c2, c3, c8, c9, c10, c11⟩ := kept_3 (after ops_2 (after ops_1 W))
  obtain ⟨d8, d9, d10, d11, dh⟩ := kept_4 (after ops_3 (after ops_2 (after ops_1 W)))
  have e2 := stage_2 (after ops_1 W) _ _ _ _ _ _ _ _ (stage_1 W) a0 a4 a5 a6 a7
  have e3 := stage_3 (after ops_2 (after ops_1 W)) _ _ _ _ _ _ _ _ e2
  have e4 := stage_4 (after ops_3 (after ops_2 (after ops_1 W))) _ _ _ _ _ _ _ _ e3 (c1.trans (b1.trans a1)) (c2.trans (b2.trans a2)) (c3.trans (b3.trans a3))
  have e5 := stage_5 (after ops_4 (after ops_3 (after ops_2 (after ops_1 W)))) _ _ _ _ _ _ _ _ _ _ _ _ e4 (dh.trans e3)
    (d8.trans (c8.trans (b8.trans a8))) (d9.trans (c9.trans (b9.trans a9))) (d10.trans (c10.trans (b10.trans a10))) (d11.trans (c11.trans (b11.trans a11)))
  have e6 := stage_6 (after ops_5 (after ops_4 (after ops_3 (after ops_2 (after ops_1 W))))) _ _ _ _ _ _ _ _ _ _ _ _ e5
  have e7 := stage_7 (after ops_6 (after ops_5 (after ops_4 (after ops_3 (after ops_2 (after ops_1 W)))))) _ _ _ _ _ _ _ _ _ _ _ _
    ((kept_6 (after ops_5 (after ops_4 (after ops_3 (after ops_2 (after ops_1 W)))))).trans e5) e6
  exact stage_8 (after ops_7 (after ops_6 (after ops_5 (after ops_4 (after ops_3 (after ops_2 (after ops_1 W))))))) _ _ _ _ _ _ _ _ _ _ _ _ e7

end Cert.ReferenceIdeal.Stages

end
-- ==== Proof.RefHidden.lean ====
/-
  The reference's first layer, read at an index.

  The reference computes, over whole arrays, the aggregated features times the transposed left weights plus the left bias,
  plus the features times the transposed right weights plus the right bias; divides every row by the larger of its L1
  norm and the floor; and clamps at zero. Read at entry (i, j), each whole-array operation reads its operands at the
  entries of row i (a product sums over the contracted position, the norm sums over the row), so the entry is the row
  function `normRelu ∘ lin` of row i: the reference's layer 1 is `hidden` of its aggregated array, the features, the two
  transposed weight matrices and the two biases.
-/
import proofs.«116038_j67053029425277_1_alg».proof.Proof.RefRead
import proofs.«116038_j67053029425277_1_alg».proof.Proof.RowSpec

noncomputable section

open scoped BigOperators

namespace Cert.ReferenceIdeal.Layer1

open Idealize.ShloMosaic Idealize.ShloMosaic.ValueIdx Cert.ReferenceIdeal Cert.ReferenceIdeal.ReadP Cert.SageRows

/-- The reference's affine array at entry (r, c): each product sums over the contracted position of row r, each bias is
    read at column c, and the four terms are added in the order of `lin`. -/
theorem pre_apply (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 100000) (c : Fin 128) :
    val_main_v23 (F := Ideal) x0 x1 x2 x3 x4 x5 x6 x7 (ix2 r c)
      = lin (fun k => val_main_v12 (F := Ideal) x0 x1 x2 x3 (ix2 r k)) (fun k => x0 (ix2 r k))
          (val_main_v13 (F := Ideal) x4) (val_main_v18 (F := Ideal) x6) (fun j => x5 (ix1 j)) (fun j => x7 (ix1 j)) c := by
  rw [val_main_v23_apply, val_main_v20_apply, val_main_v17_apply, val_main_v14_apply, val_main_v19_apply,
    val_main_v16_apply, val_main_v15_apply, val_main_v22_apply, val_main_v21_apply]
  simp only [Ideal.addf_def]
  unfold lin
  -- the composed index functions, at (r, c), are the coordinate constructors
  have el14 : ∀ k : Fin 128, lidx_main_v14 (ix2 r c) k = ix2 r k := fun k =>
    funext fun a => Fin.ext (by match a with | ⟨0, _⟩ => rfl | ⟨1, _⟩ => rfl)
  have er14 : ∀ k : Fin 128, ridx_main_v14 (ix2 r c) k = ix2 k c := fun k =>
    funext fun a => Fin.ext (by match a with | ⟨0, _⟩ => rfl | ⟨1, _⟩ => rfl)
  have el19 : ∀ k : Fin 128, lidx_main_v19 (ix2 r c) k = ix2 r k := fun k =>
    funext fun a => Fin.ext (by match a with | ⟨0, _⟩ => rfl | ⟨1, _⟩ => rfl)
  have er19 : ∀ k : Fin 128, ridx_main_v19 (ix2 r c) k = ix2 k c := fun k =>
    funext fun a => Fin.ext (by match a with | ⟨0, _⟩ => rfl | ⟨1, _⟩ => rfl)
  have e5 : idx_main_v15 (idx_main_v16 (ix2 r c)) = ix1 c :=
    funext fun a => Fin.ext (by match a with | ⟨0, _⟩ => rfl)
  have e7 : idx_main_v21 (idx_main_v22 (ix2 r c)) = ix1 c :=
    funext fun a => Fin.ext (by match a with | ⟨0, _⟩ => rfl)
  rw [e5, e7]
  refine congrArg₂ (· + ·) (congrArg₂ (· + ·) (congrArg₂ (· + ·) ?_ rfl) ?_) rfl
  · exact Finset.sum_congr rfl fun k _ => by rw [el14 k, er14 k]
  · exact Finset.sum_congr rfl fun k _ => by rw [el19 k, er19 k]

/-- The reference's divisor array at entry (r, c): the larger of row r's L1 norm (the sum over the row of the absolute
    values of the affine array, started from the zero word) and the floor. -/
theorem norm_apply (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (r : Fin 100000) (c : Fin 128) :
    val_main_v29 (F := Ideal) x0 x1 x2 x3 x4 x5 x6 x7 (ix2 r c)
      = max (∑ q : Fin 128, max (val_main_v23 (F := Ideal) x0 x1 x2 x3 x4 x5 x6 x7 (ix2 r q))
              (-(val_main_v23 (F := Ideal) x0 x1 x2 x3 x4 x5 x6 x7 (ix2 r q)))) eps := by
  rw [val_main_v29_apply, val_main_v28_apply, val_main_v26_apply, val_main_v25_apply, val_main_v27_apply,
    val_main_cst_2_apply, val_main_cst_1_apply]
  simp only [Ideal.maximumf_def, Ideal.ofBits_def, Ideal.ofBits_zero_f32, zero_add]
  refine congrArg (max · eps) (Finset.sum_congr rfl fun q _ => ?_)
  have e : idx_main_v25 (idx_main_v26 (idx_main_v29 (ix2 r c))) q = ix2 r q :=
    funext fun a => Fin.ext (by match a with | ⟨0, _⟩ => rfl | ⟨1, _⟩ => rfl)
  rw [e, val_main_v24_apply, Ideal.hostAbsf_def, Ideal.absf_def]

/-- The reference's hidden activations are layer 1 (`hidden`) of its own aggregated array. -/
theorem ref_hidden (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v31 (F := Ideal) x0 x1 x2 x3 x4 x5 x6 x7
      = hidden (val_main_v12 (F := Ideal) x0 x1 x2 x3) x0 (val_main_v13 (F := Ideal) x4) (val_main_v18 (F := Ideal) x6)
          (fun j => x5 (ix1 j)) (fun j => x7 (ix1 j)) := by
  funext i
  obtain ⟨r, c, rfl⟩ : ∃ (r : Fin 100000) (c : Fin 128), i = ix2 r c := ⟨i 0, i 1, eq_ix2 i⟩
  rw [hidden_apply, val_main_v31_apply, val_main_v30_apply, val_main_call0_v0_apply, val_main_call0_cst_apply,
    norm_apply]
  simp only [Ideal.maximumf_def, Ideal.hostDivf_def, Ideal.ofBits_def, pre_apply]
  rfl

end Cert.ReferenceIdeal.Layer1

end
-- ==== Proof.RefScores.lean ====
/-
  The reference's second layer and its log-softmax, read at an index.

  Over whole arrays the reference forms the second affine combination (64 columns) of the re-aggregated hidden
  activations and the hidden activations, takes each row's maximum (a fold of max from the -∞ word, joined once more with
  that word, which changes nothing), subtracts it, and subtracts the log of the row's sum of exponentials. Read at entry
  (i, j) every operation reads row i, so the entry is `logSoftmax ∘ lin` of row i: the result is `scores` of the
  re-aggregated array, the hidden activations, the two transposed weight matrices and the two biases.
-/
import proofs.«116038_j67053029425277_1_alg».proof.Proof.RefRead
import proofs.«116038_j67053029425277_1_alg».proof.Proof.RowSpec
import Mathlib.Data.Finset.Fold

noncomputable section

open scoped BigOperators

namespace Cert.ReferenceIdeal.Layer2

open Idealize.ShloMosaic Idealize.ShloMosaic.ValueIdx Cert.ReferenceIdeal Cert.ReferenceIdeal.ReadP Cert.SageRows

/-! ## Inserting a column into a row index -/

/-- The reduced index `r` with column `k` put back on the dropped axis is (r, k). -/
theorem lift_row (h : S100000x64.Reduces [1] S100000) (r : Fin 100000) (k : Fin 64) :
    h.lift (ix1 r) k = ix2 r k := by
  funext a
  apply Fin.ext
  match a with
  | ⟨0, _⟩ => rfl
  | ⟨1, _⟩ => rfl

/-! ## The second affine combination at an entry -/

/-- Entry (r, c) of the second affine combination is `lin` of rows `r` of the re-aggregated array and of the hidden
    activations, through the two transposed weight matrices, with the two biases, at column `c`: each product reads
    row `r` of its left factor and column `c` of its right one, each bias is read at `c`. -/
theorem affine_at (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S64, .f32⟩ : BufTy).Contents (Elt Ideal)) (r : Fin 100000) (c : Fin 64) :
    val_main_v55 (F := Ideal) x0 x1 x2 x3 x4 x5 x6 x7 x8 x9 x10 x11 (ix2 r c)
      = lin (fun k => val_main_v44 (F := Ideal) x0 x1 x2 x3 x4 x5 x6 x7 (ix2 r k)) (fun k => val_main_v31 (F := Ideal) x0 x1 x2 x3 x4 x5 x6 x7 (ix2 r k))
          (val_main_v45 (F := Ideal) x8) (val_main_v50 (F := Ideal) x10) (fun j => x9 (ix1 j)) (fun j => x11 (ix1 j)) c := by
  rw [val_main_v55_apply, val_main_v52_apply, val_main_v49_apply, val_main_v46_apply, val_main_v48_apply,
    val_main_v47_apply, val_main_v51_apply, val_main_v54_apply, val_main_v53_apply]
  generalize val_main_v44 (F := Ideal) x0 x1 x2 x3 x4 x5 x6 x7 = A
  generalize val_main_v31 (F := Ideal) x0 x1 x2 x3 x4 x5 x6 x7 = X
  generalize val_main_v45 (F := Ideal) x8 = wl
  generalize val_main_v50 (F := Ideal) x10 = wr
  -- the index functions of the two products and of the two bias broadcasts, at (r, c)
  have el : ∀ k : Fin 128, lidx_main_v46 (ix2 r c) k = ix2 r k := fun k => funext fun a => Fin.ext (by match a with | ⟨0, _⟩ => rfl | ⟨1, _⟩ => rfl)
  have er : ∀ k : Fin 128, ridx_main_v46 (ix2 r c) k = ix2 k c := fun k => funext fun a => Fin.ext (by match a with | ⟨0, _⟩ => rfl | ⟨1, _⟩ => rfl)
  have el' : ∀ k : Fin 128, lidx_main_v51 (ix2 r c) k = ix2 r k := fun k => funext fun a => Fin.ext (by match a with | ⟨0, _⟩ => rfl | ⟨1, _⟩ => rfl)
  have er' : ∀ k : Fin 128, ridx_main_v51 (ix2 r c) k = ix2 k c := fun k => funext fun a => Fin.ext (by match a with | ⟨0, _⟩ => rfl | ⟨1, _⟩ => rfl)
  have e9 : idx_main_v47 (idx_main_v48 (ix2 r c)) = ix1 c := funext fun a => Fin.ext (by match a with | ⟨0, _⟩ => rfl)
  have e11 : idx_main_v53 (idx_main_v54 (ix2 r c)) = ix1 c := funext fun a => Fin.ext (by match a with | ⟨0, _⟩ => rfl)
  have hl : (∑ k : Fin 128, A (lidx_main_v46 (ix2 r c) k) * wl (ridx_main_v46 (ix2 r c) k)) = ∑ k : Fin 128, A (ix2 r k) * wl (ix2 k c) :=
    Finset.sum_congr rfl fun k _ => by rw [el k, er k]
  have hr : (∑ k : Fin 128, X (lidx_main_v51 (ix2 r c) k) * wr (ridx_main_v51 (ix2 r c) k)) = ∑ k : Fin 128, X (ix2 r k) * wr (ix2 k c) :=
    Finset.sum_congr rfl fun k _ => by rw [el' k, er' k]
  show (∑ k : Fin 128, A (lidx_main_v46 (ix2 r c) k) * wl (ridx_main_v46 (ix2 r c) k)) + x9 (idx_main_v47 (idx_main_v48 (ix2 r c)))
        + (∑ k : Fin 128, X (lidx_main_v51 (ix2 r c) k) * wr (ridx_main_v51 (ix2 r c) k)) + x11 (idx_main_v53 (idx_main_v54 (ix2 r c)))
      = (∑ k : Fin 128, A (ix2 r k) * wl (ix2 k c)) + x9 (ix1 c) + (∑ k : Fin 128, X (ix2 r k) * wr (ix2 k c)) + x11 (ix1 c)
  rw [hl, hr, e9, e11]

/-! ## The row maximum, the shifted entry, the row's sum of exponentials -/

/-- For any 100000 × 64 array `y`: the reduce with a maximum body over the 64 columns, from the -∞ word, is at row `r` the
    fold of max from that word's value over the entries of row `r`, which is the row's `rowMax`. -/
theorem reduceMax_row (y : FVec Ideal S100000x64 .f32) (r : Fin 100000) :
    Host.reduce FloatOps.maximumf y (val_main_call1_cst (F := Ideal)) Gen.reducesTo_S100000x64_S100000_d1 Gen.h_S_ (ix1 r)
      = rowMax (fun q => y (ix2 r q)) := by
  have h : S100000x64.Reduces [1] S100000 := by decide
  refine (Host.reduce_eq_fold_single (α := Ideal .f32) FloatOps.maximumf y _ Gen.reducesTo_S100000x64_S100000_d1 h Gen.h_S_ (ix1 r)).trans ?_
  refine (Finset.fold_congr (g := fun q : Fin 64 => y (ix2 r q)) fun q _ => ?_).trans ?_
  · exact congrArg y (lift_row h r q)
  · rw [val_main_call1_cst_apply, Ideal.ofBits_def]
    rfl

/-- The row maximum of the second affine combination at row `r`. -/
theorem rowmax_at (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S64, .f32⟩ : BufTy).Contents (Elt Ideal)) (r : Fin 100000) :
    val_main_call1_v0 (F := Ideal) x0 x1 x2 x3 x4 x5 x6 x7 x8 x9 x10 x11 (ix1 r) = rowMax (fun q => val_main_v55 (F := Ideal) x0 x1 x2 x3 x4 x5 x6 x7 x8 x9 x10 x11 (ix2 r q)) := by
  unfold val_main_call1_v0
  exact reduceMax_row _ r

/-- A row's maximum joined once more with the -∞ word is the maximum itself: a fold of max from a word is at least
    that word. -/
theorem max_bot_rowMax (p : Fin 64 → EReal) : max (Ideal.ofBits .f32 0xFF800000#32) (rowMax p) = rowMax p :=
  max_eq_right ((Finset.le_fold_max _).mpr (Or.inl le_rfl))

/-- Entry (r, c) of the shifted array: the entry minus the row's maximum. -/
theorem shifted_at (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S64, .f32⟩ : BufTy).Contents (Elt Ideal)) (r : Fin 100000) (c : Fin 64) :
    val_main_call1_v5 (F := Ideal) x0 x1 x2 x3 x4 x5 x6 x7 x8 x9 x10 x11 (ix2 r c)
      = val_main_v55 (F := Ideal) x0 x1 x2 x3 x4 x5 x6 x7 x8 x9 x10 x11 (ix2 r c) - rowMax (fun q => val_main_v55 (F := Ideal) x0 x1 x2 x3 x4 x5 x6 x7 x8 x9 x10 x11 (ix2 r q)) := by
  have e : idx_main_call1_v3 (idx_main_call1_v4 (ix2 r c)) = ix1 r := funext fun a => Fin.ext (by match a with | ⟨0, _⟩ => rfl)
  rw [val_main_call1_v5_apply, val_main_call1_v4_apply, val_main_call1_v3_apply, val_main_call1_v2_apply,
    val_main_call1_v1_apply, val_main_call1_cst_0_apply, e, rowmax_at, Ideal.subf_def, Ideal.maximumf_def, Ideal.ofBits_def,
    max_bot_rowMax]

/-- The float sum over the 64 columns of the exponentials of the shifted entries, at row `r`; it starts from the zero
    word, whose value is 0. -/
theorem sumexp_at (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S64, .f32⟩ : BufTy).Contents (Elt Ideal)) (r : Fin 100000) :
    val_main_call1_v7 (F := Ideal) x0 x1 x2 x3 x4 x5 x6 x7 x8 x9 x10 x11 (ix1 r)
      = ∑ q : Fin 64, Ideal.exp (val_main_v55 (F := Ideal) x0 x1 x2 x3 x4 x5 x6 x7 x8 x9 x10 x11 (ix2 r q) - rowMax (fun q' => val_main_v55 (F := Ideal) x0 x1 x2 x3 x4 x5 x6 x7 x8 x9 x10 x11 (ix2 r q'))) := by
  rw [val_main_call1_v7_apply, val_main_call1_cst_1_apply, Ideal.ofBits_def, Ideal.ofBits_zero_f32, zero_add]
  refine Finset.sum_congr rfl fun q _ => ?_
  have e : idx_main_call1_v7 (ix1 r) q = ix2 r q := funext fun a => Fin.ext (by match a with | ⟨0, _⟩ => rfl | ⟨1, _⟩ => rfl)
  rw [e, val_main_call1_v6_apply, Ideal.hostUnary_exp_def, shifted_at]

/-- The reference's result is layer 2 (`scores`) of its re-aggregated array and its hidden activations. -/
theorem ref_scores (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S64, .f32⟩ : BufTy).Contents (Elt Ideal)) :
    val_main_v56 (F := Ideal) x0 x1 x2 x3 x4 x5 x6 x7 x8 x9 x10 x11
      = scores (val_main_v44 (F := Ideal) x0 x1 x2 x3 x4 x5 x6 x7) (val_main_v31 (F := Ideal) x0 x1 x2 x3 x4 x5 x6 x7)
          (val_main_v45 (F := Ideal) x8) (val_main_v50 (F := Ideal) x10) (fun j => x9 (ix1 j)) (fun j => x11 (ix1 j)) := by
  funext i
  obtain ⟨r, c, rfl⟩ : ∃ (r : Fin 100000) (c : Fin 64), i = ix2 r c := ⟨i 0, i 1, eq_ix2 i⟩
  -- row r of the second affine combination is `lin` of rows r
  have hrow : (fun q : Fin 64 => val_main_v55 (F := Ideal) x0 x1 x2 x3 x4 x5 x6 x7 x8 x9 x10 x11 (ix2 r q))
      = lin (fun k => val_main_v44 (F := Ideal) x0 x1 x2 x3 x4 x5 x6 x7 (ix2 r k)) (fun k => val_main_v31 (F := Ideal) x0 x1 x2 x3 x4 x5 x6 x7 (ix2 r k))
          (val_main_v45 (F := Ideal) x8) (val_main_v50 (F := Ideal) x10) (fun j => x9 (ix1 j)) (fun j => x11 (ix1 j)) :=
    funext fun q => affine_at x0 x1 x2 x3 x4 x5 x6 x7 x8 x9 x10 x11 r q
  have e : idx_main_call1_v8 (idx_main_call1_v10 (ix2 r c)) = ix1 r := funext fun a => Fin.ext (by match a with | ⟨0, _⟩ => rfl)
  rw [scores_apply, ← hrow, val_main_v56_apply, val_main_call1_v10_apply, val_main_call1_v9_apply, val_main_call1_v8_apply, e,
    sumexp_at, shifted_at, Ideal.subf_def, Ideal.hostUnary_log_def]
  rfl

end Cert.ReferenceIdeal.Layer2

end
-- ==== Proof.lean ====
/-
  The certificate of the two-layer graph network: the kernel program against its reference, over the extended reals.

  Both programs aggregate the neighbours' features with the same host operations (a gather of rows scaled by the edge
  values, summed per target row) and then apply, node by node, the same row function: an affine form of the aggregated row
  and the node's own row, L1-normalised and clamped at zero in the first layer, log-softmaxed in the second. The kernel
  program computes the row functions in two pipelined kernels over blocks of 5000 rows with the weights pre-transposed;
  the reference computes them with whole-array operations. At the ideal values a change of format is the identity and a
  matrix product is the plain sum of products, so both results are ONE function of the twelve arguments,
  `Cert.KernelIdeal.Value.result`: the kernel side by reading the two regions' output arrays block by block
  (Proof/KernelRows, Proof/KernelArrays, Proof/KernelValue), the reference side by reading its staged operations at an
  index (Proof/RefHidden, Proof/RefScores) after its run is cut into stretches (Proof/RefStages). No law of the extended
  reals beyond renaming a sum's index set is used, and the inputs' finiteness is never opened.
-/
import proofs.«116038_j67053029425277_1_alg».proof.Defs
import proofs.«116038_j67053029425277_1_alg».proof.Proof.Gen.Kernel
import proofs.«116038_j67053029425277_1_alg».proof.Proof.Gen.Kernel.Frame
import proofs.«116038_j67053029425277_1_alg».proof.Proof.Gen.KernelIdeal
import proofs.«116038_j67053029425277_1_alg».proof.Proof.Gen.KernelIdeal.Frame
import proofs.«116038_j67053029425277_1_alg».proof.Proof.Gen.ReferenceIdeal
import proofs.«116038_j67053029425277_1_alg».proof.Proof.Gen.Pre_finite_inputs
import proofs.«116038_j67053029425277_1_alg».proof.Proof.KernelValue
import proofs.«116038_j67053029425277_1_alg».proof.Proof.RefStages
import proofs.«116038_j67053029425277_1_alg».proof.Proof.RefHidden
import proofs.«116038_j67053029425277_1_alg».proof.Proof.RefScores
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.ReferenceIdeal Cert.ReferenceIdeal.ReadP

/-! ## The reference's staged result is the kernel program's function -/

/-- The reference's first aggregation is the host chain `aggregate` of the features. -/
theorem ref_agg1 (x0 : (⟨S100000x128, .f32⟩ : BufTy).Contents (Elt Ideal)) (x1 x2 : (⟨S1600000, .i32⟩ : BufTy).Contents (Elt Ideal)) (x3 : (⟨S1600000, .f32⟩ : BufTy).Contents (Elt Ideal)) :
    val_main_v12 (F := Ideal) x0 x1 x2 x3 = Cert.KernelIdeal.Value.aggregate x0 x1 x2 x3 := rfl

/-- Its second aggregation is the same chain applied to its hidden activations. -/
theorem ref_agg2 (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v44 (F := Ideal) x0 x1 x2 x3 x4 x5 x6 x7 = Cert.KernelIdeal.Value.aggregate (val_main_v31 (F := Ideal) x0 x1 x2 x3 x4 x5 x6 x7) x1 x2 x3 := rfl

/-- So its hidden activations are the kernel program's. -/
theorem ref_hiddenOf (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v31 (F := Ideal) x0 x1 x2 x3 x4 x5 x6 x7 = Cert.KernelIdeal.Value.hiddenOf x0 x1 x2 x3 x4 x5 x6 x7 := by
  rw [Cert.ReferenceIdeal.Layer1.ref_hidden, ref_agg1]
  rfl

/-- And its result is the kernel program's. -/
theorem ref_result (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) (x11 : (⟨S64, .f32⟩ : BufTy).Contents (Elt Ideal)) :
    val_main_v56 (F := Ideal) x0 x1 x2 x3 x4 x5 x6 x7 x8 x9 x10 x11 = Cert.KernelIdeal.Value.result x0 x1 x2 x3 x4 x5 x6 x7 x8 x9 x10 x11 := by
  rw [Cert.ReferenceIdeal.Layer2.ref_scores, ref_agg2, ref_hiddenOf]
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: there is no conjunct to state. -/
theorem preserves : Cert.preserves_Kernel_KernelIdeal := trivial

/-- From memories agreeing on the arguments both programs end with the result buffer at `result` of the arguments. -/
theorem algebraic : Cert.algebraic_KernelIdeal_ReferenceIdeal := by
  intro m ρ m' ρ' _ hagree
  refine ⟨fun c => Cert.KernelIdeal.Value.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11⟩ := hagree c
  refine (Cert.ReferenceIdeal.Stages.after_result (F := Ideal) (StableHlo.launchContents m' c)).trans ?_
  have h0 : StableHlo.launchContents m' c (Proc.devRef .tc Cert.ReferenceIdeal.main_arg0) = (m ((c.tc : Thread Cert.KernelIdeal.nD Cert.KernelIdeal.τ).loc Cert.KernelIdeal.main_arg0)) := e0
  have h1 : StableHlo.launchContents m' c (Proc.devRef .tc Cert.ReferenceIdeal.main_arg1) = (m ((c.tc : Thread Cert.KernelIdeal.nD Cert.KernelIdeal.τ).loc Cert.KernelIdeal.main_arg1)) := e1
  have h2 : StableHlo.launchContents m' c (Proc.devRef .tc Cert.ReferenceIdeal.main_arg2) = (m ((c.tc : Thread Cert.KernelIdeal.nD Cert.KernelIdeal.τ).loc Cert.KernelIdeal.main_arg2)) := e2
  have h3 : StableHlo.launchContents m' c (Proc.devRef .tc Cert.ReferenceIdeal.main_arg3) = (m ((c.tc : Thread Cert.KernelIdeal.nD Cert.KernelIdeal.τ).loc Cert.KernelIdeal.main_arg3)) := e3
  have h4 : StableHlo.launchContents m' c (Proc.devRef .tc Cert.ReferenceIdeal.main_arg4) = (m ((c.tc : Thread Cert.KernelIdeal.nD Cert.KernelIdeal.τ).loc Cert.KernelIdeal.main_arg4)) := e4
  have h5 : StableHlo.launchContents m' c (Proc.devRef .tc Cert.ReferenceIdeal.main_arg5) = (m ((c.tc : Thread Cert.KernelIdeal.nD Cert.KernelIdeal.τ).loc Cert.KernelIdeal.main_arg5)) := e5
  have h6 : StableHlo.launchContents m' c (Proc.devRef .tc Cert.ReferenceIdeal.main_arg6) = (m ((c.tc : Thread Cert.KernelIdeal.nD Cert.KernelIdeal.τ).loc Cert.KernelIdeal.main_arg6)) := e6
  have h7 : StableHlo.launchContents m' c (Proc.devRef .tc Cert.ReferenceIdeal.main_arg7) = (m ((c.tc : Thread Cert.KernelIdeal.nD Cert.KernelIdeal.τ).loc Cert.KernelIdeal.main_arg7)) := e7
  have h8 : StableHlo.launchContents m' c (Proc.devRef .tc Cert.ReferenceIdeal.main_arg8) = (m ((c.tc : Thread Cert.KernelIdeal.nD Cert.KernelIdeal.τ).loc Cert.KernelIdeal.main_arg8)) := e8
  have h9 : StableHlo.launchContents m' c (Proc.devRef .tc Cert.ReferenceIdeal.main_arg9) = (m ((c.tc : Thread Cert.KernelIdeal.nD Cert.KernelIdeal.τ).loc Cert.KernelIdeal.main_arg9)) := e9
  have h10 : StableHlo.launchContents m' c (Proc.devRef .tc Cert.ReferenceIdeal.main_arg10) = (m ((c.tc : Thread Cert.KernelIdeal.nD Cert.KernelIdeal.τ).loc Cert.KernelIdeal.main_arg10)) := e10
  have h11 : StableHlo.launchContents m' c (Proc.devRef .tc Cert.ReferenceIdeal.main_arg11) = (m ((c.tc : Thread Cert.KernelIdeal.nD Cert.KernelIdeal.τ).loc Cert.KernelIdeal.main_arg11)) := e11
  rw [h0, h1, h2, h3, h4, h5, h6, h7, h8, h9, h10, h11]
  exact ref_result _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
